-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S10000x64 : Shape := ⟨2, ![10000, 64]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_

variable [Facts]

def fn {F : FTy → Type} [FloatOps F] (main_arg0 : FVec F S4096x10000 .f32) (main_arg1 : FVec F S10000x64 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  main_v8
-- ==== Kernel.lean ====
abbrev S4096x10000 : Shape := ⟨2, ![4096, 10000]⟩
abbrev S10000x64 : Shape := ⟨2, ![10000, 64]⟩
abbrev S1x10000 : Shape := ⟨2, ![1, 10000]⟩
abbrev S512x10000 : Shape := ⟨2, ![512, 10000]⟩
abbrev S10000 : Shape := ⟨1, ![10000]⟩
abbrev S1x64 : Shape := ⟨2, ![1, 64]⟩
abbrev S64 : Shape := ⟨1, ![64]⟩
abbrev S_ : Shape := ⟨0, ![]⟩

abbrev nBuf : Space → Nat
  | .hbm => 19
  | .vmem => 4
  | .smem => 0
  | _ => 0

abbrev bufTy : (tb : Table) → Fin (tcTables nBuf tb) → BufTy
  | .hbm, ⟨0, _⟩ => ⟨S4096x10000, .f32⟩
  | .hbm, ⟨1, _⟩ => ⟨S10000x64, .f32⟩
  | .hbm, ⟨2, _⟩ => ⟨S1x10000, .f32⟩
  | .hbm, ⟨3, _⟩ => ⟨S1x10000, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S10000x64, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x10000, .f32⟩
  | .local _ .vmem, ⟨1, _⟩ => ⟨S512x10000, .f32⟩
  | .local _ .vmem, ⟨2, _⟩ => ⟨S1x10000, .f32⟩
  | .local _ .vmem, ⟨3, _⟩ => ⟨S1x10000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x10000_S1x10000_0_0 : ∀ a, (![0, 0] : Fin 2 → Nat) a + S1x10000.size a ≤ S1x10000.size a
  h_S1x10000 : 0 < S1x10000.numel
  inb_S512x10000_S512x10000_0_0 : ∀ a, (![0, 0] : Fin 2 → Nat) a + S512x10000.size a ≤ S512x10000.size a
  h_S512x10000 : 0 < S512x10000.numel
  shapeCasts_S1x10000_S1x10000 : S1x10000.ShapeCasts S1x10000
  reduces_S512x10000_S10000 : S512x10000.Reduces [0] S10000
  shapeCasts_S10000_S1x10000 : S10000.ShapeCasts S1x10000
  shapeCasts_S1x64_S64 : S1x64.ShapeCasts S64
  reducesTo_S64_S_d0 : S64.ReducesTo [0] S_
  h_S_ : 0 < S_.numel
  reducesTo_S10000x64_S10000_d1 : S10000x64.ReducesTo [1] S10000
  shapeCasts_S1x10000_S10000 : S1x10000.ShapeCasts S10000
  reducesTo_S10000_S_d0 : S10000.ReducesTo [0] S_
  dot_S1x10000_S10000x64_S1x64_1_0_0_1_n_n_wf : DotDims.WF S1x10000 S10000x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10000.size a ≤ S4096x10000.size a
  hwx0_0 : ∀ i : grid0.Coords, EltTy.bits .f32 = 32 ∨ (Rect.block (s := S4096x10000) S512x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .f32 = 32 ∨ (Rect.block (s := S1x10000) S1x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)

variable [Facts₀]

def dot_S1x10000_S10000x64_S1x64_1_0_0_1_n_n : DotDims S1x10000 S10000x64 S1x64 where
  lhsContracting := [1]
  rhsContracting := [0]
  lhsNonContracting := [0]
  rhsNonContracting := [1]
  lhsBatch := []
  rhsBatch := []
  wf := dot_S1x10000_S10000x64_S1x64_1_0_0_1_n_n_wf

abbrev win0_0 : Pipeline.Window sig grid0 :=
  Pipeline.Window.ofSpec (Memref.whole main_arg0) S512x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x10000.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x10000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S10000x64 : Shape := ⟨2, ![10000, 64]⟩
abbrev S4096x64 : Shape := ⟨2, ![4096, 64]⟩
abbrev S_ : Shape := ⟨0, ![]⟩
abbrev S64 : Shape := ⟨1, ![64]⟩

abbrev nBuf : Space → Nat
  | .hbm => 16
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S10000x64, .f32⟩
  | .hbm, ⟨2, _⟩ => ⟨S4096x64, .f32⟩
  | .hbm, ⟨3, _⟩ => ⟨S_, .f32⟩
  | .hbm, ⟨4, _⟩ => ⟨S64, .f32⟩
  | .hbm, ⟨5, _⟩ => ⟨S4096x10000, .f32⟩
  | .hbm, ⟨6, _⟩ => ⟨S10000x64, .f32⟩
  | .hbm, ⟨7, _⟩ => ⟨S4096x64, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S4096x64_S64_d0 : S4096x64.ReducesTo [0] S64
  h_S_ : 0 < S_.numel
  reducesTo_S4096x64_S_d0_1 : S4096x64.ReducesTo [0, 1] S_
  reducesTo_S64_S_d0 : S64.ReducesTo [0] S_
  dot_S4096x10000_S10000x64_S4096x64_1_0_0_1_n_n_wf : DotDims.WF S4096x10000 S10000x64 S4096x64 [1] [0] [0] [1] [] []

variable [Facts₀]

def dot_S4096x10000_S10000x64_S4096x64_1_0_0_1_n_n : DotDims S4096x10000 S10000x64 S4096x64 where
  lhsContracting := [1]
  rhsContracting := [0]
  lhsNonContracting := [0]
  rhsNonContracting := [1]
  lhsBatch := []
  rhsBatch := []
  wf := dot_S4096x10000_S10000x64_S4096x64_1_0_0_1_n_n_wf

class Facts : Prop extends Facts₀ where

variable [Facts]
-- ==== Proof.Pieces.lean ====
/-
  What one grid point leaves in the two accumulator blocks, as values.

  The body keeps two [1, 10000] row blocks across the eight grid points: the column sums of the input block and the
  column sums of its squares. At the first point it stores a zero row in each, reads it back, and stores the zero row
  plus the point's contribution; at every later point it reads what the point before left and stores that plus the
  point's contribution. Each accumulator's last store covers the whole block, so the block ends at that store's
  payload: the payload over the zero row in the first case, over the carried row in the second.
-/
import proofs.«100159_j30631706755974_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

/-- The zero offsets of a whole-block access, as the constant function. -/
theorem hz : (![0, 0] : Fin 2 → Nat) = fun _ => 0 := funext fun a => by fin_cases a <;> rfl

/-- A later point: the column-sum block ends at the carried row plus the point's column sums. -/
theorem out_B_1 (c : Dev nD) (i : grid0.Coords) (a1 : Memref sig .tc .vmem S512x10000 .f32) (h1 : a1.IsWhole)
    (a2 : Memref sig .tc .vmem S1x10000 .f32) (h2 : a2.IsWhole) (a3 : Memref sig .tc .vmem S1x10000 .f32) (h3 : a3.IsWhole)
    (hc : ¬cond0_0 i) (x : Vec F S512x10000 .f32) (xo1 xo2 : Vec F S1x10000 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S512x10000) hz,
    View.ld_unit_zero (S := S1x10000) hz]

/-- A later point: the squares block ends at the carried row plus the point's column sums of squares. -/
theorem out_B_2 (c : Dev nD) (i : grid0.Coords) (a1 : Memref sig .tc .vmem S512x10000 .f32) (h1 : a1.IsWhole)
    (a2 : Memref sig .tc .vmem S1x10000 .f32) (h2 : a2.IsWhole) (a3 : Memref sig .tc .vmem S1x10000 .f32) (h3 : a3.IsWhole)
    (hc : ¬cond0_0 i) (x : Vec F S512x10000 .f32) (xo1 xo2 : Vec F S1x10000 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S512x10000) hz,
    View.ld_unit_zero (S := S1x10000) hz]

/-- The first point: the column-sum block ends at the zero row plus the point's column sums (the zero row stored,
    read back, then covered by the sum). -/
theorem out_A_1 (c : Dev nD) (i : grid0.Coords) (a1 : Memref sig .tc .vmem S512x10000 .f32) (h1 : a1.IsWhole)
    (a2 : Memref sig .tc .vmem S1x10000 .f32) (h2 : a2.IsWhole) (a3 : Memref sig .tc .vmem S1x10000 .f32) (h3 : a3.IsWhole)
    (hc : cond0_0 i) (x : Vec F S512x10000 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x10000) hz, View.readCov_unit_zero (S := S1x10000) _ hz]
  simp only [View.readAt_eq_ld, h1.read_unread, View.ld_unit_zero (S := S512x10000) hz]

/-- The first point: the squares block ends at the zero row plus the point's column sums of squares. -/
theorem out_A_2 (c : Dev nD) (i : grid0.Coords) (a1 : Memref sig .tc .vmem S512x10000 .f32) (h1 : a1.IsWhole)
    (a2 : Memref sig .tc .vmem S1x10000 .f32) (h2 : a2.IsWhole) (a3 : Memref sig .tc .vmem S1x10000 .f32) (h3 : a3.IsWhole)
    (hc : cond0_0 i) (x : Vec F S512x10000 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x10000) hz, View.readCov_unit_zero (S := S1x10000) _ hz]
  simp only [View.readAt_eq_ld, h1.read_unread, View.ld_unit_zero (S := S512x10000) hz]

end Cert.KernelIdeal.Accum

end
-- ==== Proof.Payload.lean ====
/-
  The body's two stored rows read at a column, over the extended reals.

  The body's arithmetic is: add to the carried row the sum down the 512 rows of the input block (for the first
  accumulator) or of the block's elementwise square (for the second). Read at column k this is the carried entry plus
  the sum over the block's rows r of the block at (r, k), respectively of its square there. The zero row the first
  grid point stores is the extended real 0 at every column.
-/
import proofs.«100159_j30631706755974_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Accum

open Cert.KernelIdeal Cert.KernelIdeal.Gen ValueIdx

/-- The sum down the rows of a [512, 10000] block, read at column k: the sum over r of the block at (r, k). -/
theorem rowsum_apply (src : FVec Ideal S512x10000 .f32) (h : S512x10000.Reduces [0] S10000) (hφ : FKind.Formats .f32)
    (hacc : (0x00000000#32 : BitVec 32) = FKind.add.neutral .f32 hφ) (k : Fin 10000) :
    multiReduction (F := Ideal) .add [0] S10000 src 0x00000000#32 h hφ hacc (ix1 k) = ∑ r : Fin 512, src (ix2 r k) := by
  refine (Ideal.multiReduction_add_single src 0x00000000#32 h hφ hacc (ix1 k)).trans ?_
  refine Finset.sum_congr rfl fun r _ => congrArg src ?_
  funext a
  match a with
  | ⟨0, _⟩ => rfl
  | ⟨1, _⟩ => rfl

/-- The zero rows the first grid point stores are 0 at every entry. -/
theorem pay1_apply (j : S1x10000.Idx) : k0_pay1 (F := Ideal) j = 0 := Ideal.ofBits_zero_f32
theorem pay2_apply (j : S1x10000.Idx) : k0_pay2 (F := Ideal) j = 0 := Ideal.ofBits_zero_f32

/-- The first accumulator's stored row at column k: the carried entry plus the block's column sum. -/
theorem pay3_apply (x : Vec Ideal S512x10000 .f32) (a : Vec Ideal S1x10000 .f32) (k : Fin 10000) :
    k0_pay3 (F := Ideal) x a (ix2 (0 : Fin 1) k) = a (ix2 (0 : Fin 1) k) + ∑ r : Fin 512, x (ix2 r k) := by
  unfold k0_pay3
  show shapeCast S1x10000 a _ (ix2 (0 : Fin 1) k) + shapeCast S1x10000 (multiReduction (F := Ideal) .add [0] S10000 x 0x00000000#32 _ _ _) _ (ix2 (0 : Fin 1) k) = _
  rw [shapeCast_self]
  refine congrArg (a (ix2 (0 : Fin 1) k) + ·) ?_
  refine (shapeCast_a_1a_apply _ _ (0 : Fin 1) k).trans ?_
  exact rowsum_apply x _ _ _ k

/-- The second accumulator's stored row at column k: the carried entry plus the block's column sum of squares. -/
theorem pay4_apply (x : Vec Ideal S512x10000 .f32) (a : Vec Ideal S1x10000 .f32) (k : Fin 10000) :
    k0_pay4 (F := Ideal) x a (ix2 (0 : Fin 1) k) = a (ix2 (0 : Fin 1) k) + ∑ r : Fin 512, x (ix2 r k) * x (ix2 r k) := by
  unfold k0_pay4
  show shapeCast S1x10000 a _ (ix2 (0 : Fin 1) k) + shapeCast S1x10000 (multiReduction (F := Ideal) .add [0] S10000 (mulf x x) 0x00000000#32 _ _ _) _ (ix2 (0 : Fin 1) k) = _
  rw [shapeCast_self]
  refine congrArg (a (ix2 (0 : Fin 1) k) + ·) ?_
  refine (shapeCast_a_1a_apply _ _ (0 : Fin 1) k).trans ?_
  exact rowsum_apply (mulf x x) _ _ _ k

end Cert.KernelIdeal.Accum

end
-- ==== Proof.Spec.lean ====
/-
  The mathematics that joins the two programs, with no program in sight.

  Write X for the [4096, 10000] input and V for the [10000, 64] table. The reference computes
      1/2 · ( Σ_f (Σ_b Σ_k X[b,k]·V[k,f])²  −  Σ_b Σ_f Σ_k X[b,k]²·V[k,f]² ),
  the kernel first the column sums  s[k] = Σ_b X[b,k]  and  q[k] = Σ_b X[b,k]²  and then
      1/2 · ( Σ_f (Σ_k s[k]·V[k,f])²  −  Σ_k q[k]·(Σ_f V[k,f]²) ).
  The two agree because a sum over b passes through a product with a factor free of b, and finite sums exchange. Over
  the extended reals that distributive step fails at infinities, so it is stated for real entries: both sides are
  then coercions of real numbers, and the identity is the one of the reals. The factor 1/2 and the subtraction are
  the same on both sides and are never evaluated.

  Also here: a sum over the first 512·(n+1) naturals splits into the first 512·n and one block of 512 — the step by
  which eight grid points accumulate a column sum over 4096 rows.
-/
import Idealize.ShloMosaic.PureOps.Ideal.Laws
import Idealize.ShloMosaic.Lib.ValueIdx

noncomputable section

open Idealize.ShloMosaic Idealize.ShloMosaic.TcCoe Idealize.SL.Sem

namespace Cert.Spec

open ValueIdx

/-- A finite sum of reals, coerced to the extended reals, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running sum in blocks of 512: the first 512·(n+1) terms are the first 512·n and then one block. -/
theorem sum_range_block {M : Type} [AddCommMonoid M] (f : ℕ → M) (n : ℕ) :
    ∑ b ∈ Finset.range (512 * (n + 1)), f b = ∑ b ∈ Finset.range (512 * n), f b + ∑ r : Fin 512, f (512 * n + r.val) := by
  rw [show 512 * (n + 1) = 512 * n + 512 from by ring, Finset.sum_range_add, Finset.sum_range fun r => f (512 * n + r)]

/-- Row b of the input at column k, and 0 past the last row: the input's rows indexed by all naturals. -/
def rowOr0 (X : (⟨2, ![4096, 10000]⟩ : Shape).Idx → EReal) (b : ℕ) (k : Fin 10000) : EReal :=
  if h : b < 4096 then X (ix2 ⟨b, h⟩ k) else 0

theorem rowOr0_lt (X : (⟨2, ![4096, 10000]⟩ : Shape).Idx → EReal) (b : ℕ) (h : b < 4096) (k : Fin 10000) :
    rowOr0 X b k = X (ix2 ⟨b, h⟩ k) := dif_pos h

/-- Over all 4096 rows the natural-indexed sum is the sum over the rows. -/
theorem sum_rowOr0 (X : (⟨2, ![4096, 10000]⟩ : Shape).Idx → EReal) (g : EReal → EReal) (k : Fin 10000) :
    ∑ b ∈ Finset.range 4096, g (rowOr0 X b k) = ∑ b : Fin 4096, g (X (ix2 b k)) := by
  rw [Finset.sum_range fun b => g (rowOr0 X b k)]
  exact Finset.sum_congr rfl fun b _ => by rw [rowOr0_lt X b.val b.isLt k]

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type} [AddCommMonoid M] {n : Nat} (f : (⟨1, ![n]⟩ : Shape).Idx → M) :
    ∑ i, f i = ∑ a : Fin n, f (ix1 a) :=
  (Equiv.sum_comp (idxEquiv1 (n := n)).symm f).symm

/-- A sum over b passes through a product with a factor free of b, and the two sums exchange (real entries). -/
theorem sum_mul_exchange {B K : Type} [Fintype B] [Fintype K] (x : B → K → ℝ) (v : K → ℝ) :
    ∑ k, (∑ b, (x b k : EReal)) * (v k : EReal) = ∑ b, ∑ k, (x b k : EReal) * (v k : EReal) := by
  simp only [← coe_sum, ← EReal.coe_mul]
  refine congrArg _ ?_
  simp only [Finset.sum_mul]
  exact Finset.sum_comm

/-- The same for the squares: a product of a sum over b and a sum over f is the double sum of the products. -/
theorem sum_sq_exchange {B K Fi : Type} [Fintype B] [Fintype K] [Fintype Fi] (x : B → K → ℝ) (v : K → Fi → ℝ) :
    ∑ k, (∑ b, (x b k : EReal) * (x b k : EReal)) * ∑ f, (v k f : EReal) * (v k f : EReal)
      = ∑ b, ∑ f, ∑ k, ((x b k : EReal) * (x b k : EReal)) * ((v k f : EReal) * (v k f : EReal)) := by
  simp only [← coe_sum, ← EReal.coe_mul]
  refine congrArg _ ?_
  calc ∑ k, (∑ b, x b k * x b k) * ∑ f, v k f * v k f
      = ∑ k, ∑ b, ∑ f, (x b k * x b k) * (v k f * v k f) :=
        Finset.sum_congr rfl fun k _ => by
          rw [Finset.sum_mul]
          exact Finset.sum_congr rfl fun b _ => by rw [Finset.mul_sum]
    _ = ∑ b, ∑ k, ∑ f, (x b k * x b k) * (v k f * v k f) := Finset.sum_comm
    _ = ∑ b, ∑ f, ∑ k, (x b k * x b k) * (v k f * v k f) := Finset.sum_congr rfl fun b _ => Finset.sum_comm

/-- The factor 1/2, as both programs spell it. -/
abbrev half : EReal := Ideal.ofBits .f32 0x3F000000#32

/-- What the kernel's closing host operations compute from the two column-sum rows s, q and the table V. -/
def tailScalar (s q : Fin 10000 → EReal) (V : (⟨2, ![10000, 64]⟩ : Shape).Idx → EReal) : EReal :=
  half * ((∑ f : Fin 64, (∑ k : Fin 10000, s k * V (ix2 k f)) * (∑ k : Fin 10000, s k * V (ix2 k f)))
    - ∑ k : Fin 10000, q k * ∑ f : Fin 64, V (ix2 k f) * V (ix2 k f))

/-- The kernel's result: the closing operations at the column sums of X and of its square. -/
def kerScalar (X : (⟨2, ![4096, 10000]⟩ : Shape).Idx → EReal) (V : (⟨2, ![10000, 64]⟩ : Shape).Idx → EReal) : EReal :=
  tailScalar (fun k => ∑ b : Fin 4096, X (ix2 b k)) (fun k => ∑ b : Fin 4096, X (ix2 b k) * X (ix2 b k)) V

/-- The reference's result. -/
def refScalar (X : (⟨2, ![4096, 10000]⟩ : Shape).Idx → EReal) (V : (⟨2, ![10000, 64]⟩ : Shape).Idx → EReal) : EReal :=
  half * ((∑ f : Fin 64, (∑ b : Fin 4096, ∑ k : Fin 10000, X (ix2 b k) * V (ix2 k f))
        * (∑ b : Fin 4096, ∑ k : Fin 10000, X (ix2 b k) * V (ix2 k f)))
    - ∑ b : Fin 4096, ∑ f : Fin 64, ∑ k : Fin 10000, (X (ix2 b k) * X (ix2 b k)) * (V (ix2 k f) * V (ix2 k f)))

/-- With real entries the kernel's result is the reference's. -/
theorem kerScalar_eq_refScalar (X : (⟨2, ![4096, 10000]⟩ : Shape).Idx → EReal) (V : (⟨2, ![10000, 64]⟩ : Shape).Idx → EReal)
    (hX : ∀ i, ∃ r : ℝ, X i = (r : EReal)) (hV : ∀ i, ∃ r : ℝ, V i = (r : EReal)) : kerScalar X V = refScalar X V := by
  choose xr hxr using hX
  choose vr hvr using hV
  unfold kerScalar tailScalar refScalar
  simp only [hxr, hvr]
  have hT : ∀ f : Fin 64, ∑ k : Fin 10000, (∑ b : Fin 4096, (xr (ix2 b k) : EReal)) * (vr (ix2 k f) : EReal)
      = ∑ b : Fin 4096, ∑ k : Fin 10000, (xr (ix2 b k) : EReal) * (vr (ix2 k f) : EReal) :=
    fun f => sum_mul_exchange (fun b k => xr (ix2 b k)) (fun k => vr (ix2 k f))
  have hQ := sum_sq_exchange (fun (b : Fin 4096) (k : Fin 10000) => xr (ix2 b k)) (fun (k : Fin 10000) (f : Fin 64) => vr (ix2 k f))
  simp only [hT]
  rw [hQ]

end Cert.Spec

end
-- ==== Proof.Accum.lean ====
/-
  The two accumulators over the grid, and the two arrays the region leaves.

  The input is staged in eight blocks of 512 rows; block t holds rows 512·t … 512·t + 511. After point n the first
  accumulator holds, at column k, the sum of the input's first 512·(n+1) rows there, and the second the sum of their
  squares: the first point starts both from the zero row, each later point adds its block's column sums to what the
  point before left. Both accumulators are written back once, after the last point, and their one block is the whole
  [1, 10000] array; so the region leaves the column sums, and the column sums of squares, over all 4096 rows.
-/
import proofs.«100159_j30631706755974_1_alg».proof.Proof.Pieces
import proofs.«100159_j30631706755974_1_alg».proof.Proof.Payload
import proofs.«100159_j30631706755974_1_alg».proof.Proof.Spec

noncomputable section

open Idealize.ShloMosaic Idealize.ShloMosaic.TcCoe Idealize.SL.Sem
open Idealize.ShloMosaic.Pipeline (Dat)

namespace Cert.KernelIdeal.Accum

open Cert.KernelIdeal Cert.KernelIdeal.Gen ValueIdx Cert.Spec

variable (m : (ℓ : Loc nD τ sig) → Buf (Elt Ideal) ℓ)

/-- The input array as the region finds it, and its row block at a grid point, at their literal types. -/
abbrev xarr (c : Dev nD) : Vec Ideal S4096x10000 .f32 := V m c main_arg0
abbrev xblk (c : Dev nD) (t : Fin cfg0.N) : Vec Ideal S512x10000 .f32 := iblk m c 0 t

/-- The input window's block index at point t is (t, 0). -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Block t at (r, k) is the input at row 512·t + r, column k. -/
theorem xblk_apply (c : Dev nD) (t : Fin cfg0.N) (r : Fin 512) (k : Fin 10000) (h : 512 * t.val + r.val < 4096) :
    xblk m c t (ix2 r k) = xarr m c (ix2 ⟨512 * t.val + r.val, h⟩ k) := by
  show iblk m c 0 t (ix2 r k) = V m c main_arg0 _
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(idx_facts t).1]; omega
  | ⟨1, _⟩ => show win0_0.index t 1 * 10000 + 1 * k.val = k.val; rw [(idx_facts t).2]; omega

/-- A block's column sum is the sum of the input's rows 512·t … 512·t + 511 at that column; likewise the squares. -/
theorem blk_sum (c : Dev nD) (t : Fin cfg0.N) (k : Fin 10000) :
    ∑ r : Fin 512, xblk m c t (ix2 r k) = ∑ r : Fin 512, rowOr0 (xarr m c) (512 * t.val + r.val) k :=
  Finset.sum_congr rfl fun r _ => by
    have hN : t.val < 8 := lt_of_lt_of_eq t.isLt (show cfg0.N = 8 from N_0)
    have h : 512 * t.val + r.val < 4096 := by have := r.isLt; omega
    rw [rowOr0_lt _ _ h, xblk_apply m c t r k h]
theorem blk_sum_sq (c : Dev nD) (t : Fin cfg0.N) (k : Fin 10000) :
    ∑ r : Fin 512, xblk m c t (ix2 r k) * xblk m c t (ix2 r k)
      = ∑ r : Fin 512, rowOr0 (xarr m c) (512 * t.val + r.val) k * rowOr0 (xarr m c) (512 * t.val + r.val) k :=
  Finset.sum_congr rfl fun r _ => by
    have hN : t.val < 8 := lt_of_lt_of_eq t.isLt (show cfg0.N = 8 from N_0)
    have h : 512 * t.val + r.val < 4096 := by have := r.isLt; omega
    rw [rowOr0_lt _ _ h, xblk_apply m c t r k h]

/-- The first point: both accumulators are the zero row plus the block's contribution. -/
theorem step_first (c : Dev nD) (t : Fin cfg0.N) (h0 : t.val % 8 = 0) (k : Fin 10000) :
    (outsAt0 m c t.val t.isLt).1 (ix2 (0 : Fin 1) k) = 0 + ∑ r : Fin 512, xblk m c t (ix2 r k)
    ∧ (outsAt0 m c t.val t.isLt).2 (ix2 (0 : Fin 1) k) = 0 + ∑ r : Fin 512, xblk m c t (ix2 r k) * xblk m c t (ix2 r k) := by
  rw [outsAt0_A m c t h0]
  dsimp only
  constructor
  · refine (congrFun (out_A_1 (F := Ideal) c (grid0.coords t) (ms0_0 t) (hs0_0 t) (ms0_1 t) (hs0_1 t) (ms0_2 t) (hs0_2 t) ((hcond0_0 t).mpr h0) (xblk m c t)) (ix2 (0 : Fin 1) k)).trans ?_
    refine (pay3_apply (xblk m c t) (k0_pay1 (F := Ideal)) k).trans ?_
    rw [pay1_apply]
  · refine (congrFun (out_A_2 (F := Ideal) c (grid0.coords t) (ms0_0 t) (hs0_0 t) (ms0_1 t) (hs0_1 t) (ms0_2 t) (hs0_2 t) ((hcond0_0 t).mpr h0) (xblk m c t)) (ix2 (0 : Fin 1) k)).trans ?_
    refine (pay4_apply (xblk m c t) (k0_pay2 (F := Ideal)) k).trans ?_
    rw [pay2_apply]

/-- A later point: both accumulators are what the point before left plus the block's contribution. -/
theorem step_later (c : Dev nD) (t : Fin cfg0.N) (h0 : ¬t.val % 8 = 0) (k : Fin 10000) :
    (outsAt0 m c t.val t.isLt).1 (ix2 (0 : Fin 1) k)
        = (outsAt0 m c (t.val - 1) (Nat.lt_of_le_of_lt (Nat.sub_le _ _) t.isLt)).1 (ix2 (0 : Fin 1) k) + ∑ r : Fin 512, xblk m c t (ix2 r k)
    ∧ (outsAt0 m c t.val t.isLt).2 (ix2 (0 : Fin 1) k)
        = (outsAt0 m c (t.val - 1) (Nat.lt_of_le_of_lt (Nat.sub_le _ _) t.isLt)).2 (ix2 (0 : Fin 1) k) + ∑ r : Fin 512, xblk m c t (ix2 r k) * xblk m c t (ix2 r k) := by
  rw [outsAt0_B m c t h0]
  dsimp only
  constructor
  · refine (congrFun (out_B_1 (F := Ideal) c (grid0.coords t) (ms0_0 t) (hs0_0 t) (ms0_1 t) (hs0_1 t) (ms0_2 t) (hs0_2 t) (fun h => h0 ((hcond0_0 t).mp h)) (xblk m c t)
      (outsAt0 m c (t.val - 1) (Nat.lt_of_le_of_lt (Nat.sub_le _ _) t.isLt)).1 (outsAt0 m c (t.val - 1) (Nat.lt_of_le_of_lt (Nat.sub_le _ _) t.isLt)).2) (ix2 (0 : Fin 1) k)).trans ?_
    exact pay3_apply (xblk m c t) _ k
  · refine (congrFun (out_B_2 (F := Ideal) c (grid0.coords t) (ms0_0 t) (hs0_0 t) (ms0_1 t) (hs0_1 t) (ms0_2 t) (hs0_2 t) (fun h => h0 ((hcond0_0 t).mp h)) (xblk m c t)
      (outsAt0 m c (t.val - 1) (Nat.lt_of_le_of_lt (Nat.sub_le _ _) t.isLt)).1 (outsAt0 m c (t.val - 1) (Nat.lt_of_le_of_lt (Nat.sub_le _ _) t.isLt)).2) (ix2 (0 : Fin 1) k)).trans ?_
    exact pay4_apply (xblk m c t) _ k

/-- After point n the accumulators hold the column sums, and the column sums of squares, of the first 512·(n+1) rows. -/
theorem acc_eq (c : Dev nD) : ∀ (n : ℕ) (hn : n < cfg0.N) (k : Fin 10000),
    (outsAt0 m c n hn).1 (ix2 (0 : Fin 1) k) = ∑ b ∈ Finset.range (512 * (n + 1)), rowOr0 (xarr m c) b k
    ∧ (outsAt0 m c n hn).2 (ix2 (0 : Fin 1) k)
        = ∑ b ∈ Finset.range (512 * (n + 1)), rowOr0 (xarr m c) b k * rowOr0 (xarr m c) b k
  | 0, hn, k => by
    obtain ⟨e1, e2⟩ := step_first m c ⟨0, hn⟩ rfl k
    refine ⟨e1.trans ?_, e2.trans ?_⟩
    · rw [blk_sum, sum_range_block (fun b => rowOr0 (xarr m c) b k) 0]
      simp only [Nat.mul_zero, Finset.range_zero, Finset.sum_empty]
    · rw [blk_sum_sq, sum_range_block (fun b => rowOr0 (xarr m c) b k * rowOr0 (xarr m c) b k) 0]
      simp only [Nat.mul_zero, Finset.range_zero, Finset.sum_empty]
  | n + 1, hn, k => by
    have hN : cfg0.N = 8 := N_0
    have hB : ¬(⟨n + 1, hn⟩ : Fin cfg0.N).val % 8 = 0 := by dsimp only; omega
    obtain ⟨e1, e2⟩ := step_later m c ⟨n + 1, hn⟩ hB k
    obtain ⟨i1, i2⟩ := acc_eq c n (Nat.lt_of_succ_lt hn) k
    refine ⟨e1.trans ?_, e2.trans ?_⟩
    · rw [blk_sum, sum_range_block (fun b => rowOr0 (xarr m c) b k) (n + 1)]
      exact congrArg (· + _) i1
    · rw [blk_sum_sq, sum_range_block (fun b => rowOr0 (xarr m c) b k * rowOr0 (xarr m c) b k) (n + 1)]
      exact congrArg (· + _) i2

/-- The last grid point. -/
theorem last_lt : 7 < cfg0.N := by rw [show cfg0.N = 8 from N_0]; decide

/-- What the region leaves in its two result arrays: the accumulators after the last point. -/
abbrev colsum (c : Dev nD) : Buf (Elt Ideal) ((c : Thread nD τ).loc main_v0_0) := (outsAt0 m c 7 last_lt).1
abbrev colsumsq (c : Dev nD) : Buf (Elt Ideal) ((c : Thread nD τ).loc main_v0_1) := (outsAt0 m c 7 last_lt).2

/-- Entry (0, k) of the first is the sum of column k over all 4096 rows; of the second, of the squares. -/
theorem colsum_apply (c : Dev nD) (k : Fin 10000) :
    colsum m c (ix2 (0 : Fin 1) k) = ∑ b : Fin 4096, xarr m c (ix2 b k) :=
  (acc_eq m c 7 last_lt k).1.trans (sum_rowOr0 (xarr m c) (fun y => y) k)
theorem colsumsq_apply (c : Dev nD) (k : Fin 10000) :
    colsumsq m c (ix2 (0 : Fin 1) k) = ∑ b : Fin 4096, xarr m c (ix2 b k) * xarr m c (ix2 b k) :=
  (acc_eq m c 7 last_lt k).2.trans (sum_rowOr0 (xarr m c) (fun y => y * y) k)

end Cert.KernelIdeal.Accum

end
-- ==== Proof.Tail.lean ====
/-
  The host operations that close the kernel's program, as one function of the two column-sum rows and the table,
  and that function read over the extended reals.

  From the column sums s and the column sums of squares q (both [1, 10000]) and the table V ([10000, 64]) the program
  forms the row s·V, squares and sums it; forms each table row's sum of squares, weights it by q and sums; subtracts
  the second from the first; and halves the result. Each sum starts from the constant 0, which adds nothing.
-/
import proofs.«100159_j30631706755974_1_alg».proof.Proof.Gen.KernelIdeal
import proofs.«100159_j30631706755974_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Tail

open Cert.KernelIdeal Cert.KernelIdeal.Gen ValueIdx Cert.Spec

variable {F : FTy → Type} [FloatOps F]

/-- The closing host operations, composed. -/
def tail (s q : FVec F S1x10000 .f32) (v : FVec F S10000x64 .f32) : FVec F S_ .f32 :=
  mulf (constant S_ .f32 0x3F000000#32)
    (subf
      (Host.reduceAdd
        (mulf (shapeCast S64 (Host.dotGeneral dot_S1x10000_S10000x64_S1x64_1_0_0_1_n_n none s v) shapeCasts_S1x64_S64)
          (shapeCast S64 (Host.dotGeneral dot_S1x10000_S10000x64_S1x64_1_0_0_1_n_n none s v) shapeCasts_S1x64_S64))
        (constant S_ .f32 0x00000000#32) reducesTo_S64_S_d0 h_S_)
      (Host.reduceAdd
        (mulf (shapeCast S10000 q shapeCasts_S1x10000_S10000)
          (Host.reduceAdd (mulf v v) (constant S_ .f32 0x00000000#32) reducesTo_S10000x64_S10000_d1 h_S_))
        (constant S_ .f32 0x00000000#32) reducesTo_S10000_S_d0 h_S_))

/-! ## Read over the extended reals -/

/-- A host sum into the scalar shape: the initial value plus the sum over every index of the operand. -/
theorem reduceAdd_scalar_apply {s : Shape} {axes : List (Fin s.rank)} (x : FVec Ideal s .f32) (init : FVec Ideal S_ .f32)
    (h' : s.ReducesTo axes S_) (hS : 0 < S_.numel) (i : S_.Idx) :
    Host.reduceAdd x init h' hS i = init (Shape.Idx.first hS) + ∑ j : s.Idx, x j := by
  simp only [Host.reduceAdd, Ideal.hostReduceAdd_def]
  exact Ideal.hostReduceAdd_total h' (fun b => b.elim0) x _ i

/-- Each table row's sum of squares: at row k, the initial value plus the sum over the 64 columns. -/
theorem rowsq_apply (v : FVec Ideal S10000x64 .f32) (init : FVec Ideal S_ .f32) (k : Fin 10000) :
    Host.reduceAdd (mulf v v) init reducesTo_S10000x64_S10000_d1 h_S_ (ix1 k)
      = init (Shape.Idx.first h_S_) + ∑ f : Fin 64, v (ix2 k f) * v (ix2 k f) := by
  have key : ∀ y0 : FVec Ideal S10000x64 .f32,
      Host.reduceAdd y0 init reducesTo_S10000x64_S10000_d1 h_S_ (ix1 k) = init (Shape.Idx.first h_S_) + ∑ f : Fin 64, y0 (ix2 k f) := by
    intro y0
    simp only [Host.reduceAdd, Ideal.hostReduceAdd_def]
    rw [Ideal.hostReduceAdd_single reducesTo_S10000x64_S10000_d1 (by decide)]
    refine congrArg (_ + ·) (Finset.sum_congr rfl fun f _ => ?_)
    exact congrArg y0 (funext fun a => Fin.ext (by match a with | ⟨0, _⟩ => rfl | ⟨1, _⟩ => rfl))
  exact key (mulf v v)

/-- The product's operand indices, axis by axis. -/
theorem lhs_0 (i : S1x64.Idx) (q : dot_S1x10000_S10000x64_S1x64_1_0_0_1_n_n.contr.Idx) : (dot_S1x10000_S10000x64_S1x64_1_0_0_1_n_n.lhsIdx i q 0).val = (i 0).val := by
  unfold DotDims.lhsIdx
  rw [dif_neg (show ¬(0 : Fin S1x10000.rank) ∈ dot_S1x10000_S10000x64_S1x64_1_0_0_1_n_n.lhsBatch by decide), dif_pos (show (0 : Fin S1x10000.rank) ∈ dot_S1x10000_S10000x64_S1x64_1_0_0_1_n_n.lhsNonContracting by decide)]
  rfl
theorem lhs_1 (i : S1x64.Idx) (q : dot_S1x10000_S10000x64_S1x64_1_0_0_1_n_n.contr.Idx) : (dot_S1x10000_S10000x64_S1x64_1_0_0_1_n_n.lhsIdx i q 1).val = (q ⟨0, by decide⟩).val :=
  dot_S1x10000_S10000x64_S1x64_1_0_0_1_n_n.lhsIdx_val_of_single rfl i q
theorem rhs_0 (i : S1x64.Idx) (q : dot_S1x10000_S10000x64_S1x64_1_0_0_1_n_n.contr.Idx) : (dot_S1x10000_S10000x64_S1x64_1_0_0_1_n_n.rhsIdx i q 0).val = (q ⟨0, by decide⟩).val :=
  dot_S1x10000_S10000x64_S1x64_1_0_0_1_n_n.rhsIdx_val_of_single rfl i q
theorem rhs_1 (i : S1x64.Idx) (q : dot_S1x10000_S10000x64_S1x64_1_0_0_1_n_n.contr.Idx) : (dot_S1x10000_S10000x64_S1x64_1_0_0_1_n_n.rhsIdx i q 1).val = (i 1).val := by
  unfold DotDims.rhsIdx
  rw [dif_neg (show ¬(1 : Fin S10000x64.rank) ∈ dot_S1x10000_S10000x64_S1x64_1_0_0_1_n_n.rhsBatch by decide), dif_pos (show (1 : Fin S10000x64.rank) ∈ dot_S1x10000_S10000x64_S1x64_1_0_0_1_n_n.rhsNonContracting by decide)]
  rfl

/-- The row s·V at column f: the sum over k of s at (0, k) times V at (k, f). -/
theorem dot_apply (s : FVec Ideal S1x10000 .f32) (v : FVec Ideal S10000x64 .f32) (f : Fin 64) :
    Host.dotGeneral dot_S1x10000_S10000x64_S1x64_1_0_0_1_n_n none s v (ix2 (0 : Fin 1) f) = ∑ k : Fin 10000, s (ix2 (0 : Fin 1) k) * v (ix2 k f) := by
  simp only [Host.dotGeneral]
  rw [Ideal.dotGeneral_apply, ← Equiv.sum_comp (ValueIdx.contrEquiv1 dot_S1x10000_S10000x64_S1x64_1_0_0_1_n_n 10000 rfl rfl).symm]
  refine Finset.sum_congr rfl fun k _ => ?_
  have hk := ValueIdx.contrEquiv1_symm_val dot_S1x10000_S10000x64_S1x64_1_0_0_1_n_n 10000 rfl rfl k
  have el : dot_S1x10000_S10000x64_S1x64_1_0_0_1_n_n.lhsIdx (ix2 (0 : Fin 1) f) ((ValueIdx.contrEquiv1 dot_S1x10000_S10000x64_S1x64_1_0_0_1_n_n 10000 rfl rfl).symm k) = ix2 (0 : Fin 1) k := funext fun a => Fin.ext (by
    match a with
    | ⟨0, _⟩ => exact lhs_0 _ _
    | ⟨1, _⟩ => exact (lhs_1 _ _).trans hk)
  have er : dot_S1x10000_S10000x64_S1x64_1_0_0_1_n_n.rhsIdx (ix2 (0 : Fin 1) f) ((ValueIdx.contrEquiv1 dot_S1x10000_S10000x64_S1x64_1_0_0_1_n_n 10000 rfl rfl).symm k) = ix2 k f := funext fun a => Fin.ext (by
    match a with
    | ⟨0, _⟩ => exact (rhs_0 _ _).trans hk
    | ⟨1, _⟩ => exact rhs_1 _ _)
  rw [el, er]

/-- The closing operations over the extended reals: the scalar form of the two rows' entries and the table. -/
theorem tail_apply (s q : FVec Ideal S1x10000 .f32) (v : FVec Ideal S10000x64 .f32) (i : S_.Idx) :
    tail (F := Ideal) s q v i = tailScalar (fun k => s (ix2 (0 : Fin 1) k)) (fun k => q (ix2 (0 : Fin 1) k)) v := by
  unfold tail tailScalar
  rw [mulf_apply, constant_apply, subf_apply, reduceAdd_scalar_apply, reduceAdd_scalar_apply]
  simp only [constant_apply, Ideal.ofBits_zero_f32, zero_add]
  rw [sum_idx1, sum_idx1]
  refine congrArg (half * ·) ?_
  refine congrArg₂ (· - ·) (Finset.sum_congr rfl fun f _ => ?_) (Finset.sum_congr rfl fun k _ => ?_)
  · rw [mulf_apply, shapeCast_1a_a_apply, dot_apply]
  · rw [mulf_apply, shapeCast_1a_a_apply, rowsq_apply, constant_apply, Ideal.ofBits_zero_f32, zero_add]

end Cert.KernelIdeal.Tail

end
-- ==== Proof.KernelRun.lean ====
/-
  The kernel's program run and read: its result is the closing host operations at the column sums.

  The region leaves the column sums and the column sums of squares in its two result arrays (each written back once,
  after the last grid point, through a block that is the whole array); the table is untouched; the host operations
  after the region then compute the scalar from those three arrays.
-/
import proofs.«100159_j30631706755974_1_alg».proof.Proof.Accum
import proofs.«100159_j30631706755974_1_alg».proof.Proof.Tail
import Idealize.ShloMosaic.Lib.StableHlo.Run

noncomputable section

open Idealize.ShloMosaic Idealize.ShloMosaic.TcCoe Idealize.SL.Sem
open Idealize.ShloMosaic.Pipeline (Dat)

namespace Cert.KernelIdeal.Accum

open Cert.KernelIdeal Cert.KernelIdeal.Gen ValueIdx Cert.Spec

variable (m : (ℓ : Loc nD τ sig) → Buf (Elt Ideal) ℓ) (ρ : Dev nD → PrngReg)

/-- Both result windows stay at block (0, 0) at every grid point. -/
theorem out_idx_facts : ∀ t : Fin cfg0.N,
    (win0_1.index t (0 : Fin 2) = 0 ∧ win0_1.index t (1 : Fin 2) = 0) ∧ (win0_2.index t (0 : Fin 2) = 0 ∧ win0_2.index t (1 : Fin 2) = 0) :=
  (by decide +kernel : ∀ t : Fin grid0.N,
    (win0_1.index t (0 : Fin 2) = 0 ∧ win0_1.index t (1 : Fin 2) = 0) ∧ (win0_2.index t (0 : Fin 2) = 0 ∧ win0_2.index t (1 : Fin 2) = 0))

/-- The one write-back of window 1, after the last point, writes the accumulator: its block is the whole array. -/
theorem flushed1_eq (c : Dev nD) (t : Fin cfg0.N) (hf : (cfg0.win 1).flush t = true) :
    (dats m 0 c).flushed 1 t = ((cfg0.win 1).blk t).view.read (Elt Ideal) (colsum m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  have hoff : (fun a => win0_1.index t0_7 a * main_v0_0.ty.shape.size a) = fun _ => 0 := funext fun a => by
    match a with
    | ⟨0, _⟩ => show win0_1.index t0_7 0 * _ = 0; rw [(out_idx_facts t0_7).1.1, Nat.zero_mul]
    | ⟨1, _⟩ => show win0_1.index t0_7 1 * _ = 0; rw [(out_idx_facts t0_7).1.2, Nat.zero_mul]
  exact (Memref.read_access_unit_zero (Elt Ideal) main_v0_0 hoff (fun a => by rw [congrFun hoff a, Nat.zero_add]) (colsum m c)).symm

/-- So the array ends at the accumulator after the last point: that point's block covers every index. -/
theorem final1 (c : Dev nD) : (dats m 0 c).arrAt 1 cfg0.N = colsum m c :=
  (dats m 0 c).arrAt_eq_of_cover 1 (colsum m c) (flushed1_eq m c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 10000 := (i 1).isLt
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [(out_idx_facts t0_7).1.1, show win0_1.xsize (grid0.coords t0_7) 0 = 1 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [(out_idx_facts t0_7).1.2, show win0_1.xsize (grid0.coords t0_7) 1 = 10000 from by decide +kernel]; omega⟩

/-- The one write-back of window 2, after the last point, writes the accumulator: its block is the whole array. -/
theorem flushed2_eq (c : Dev nD) (t : Fin cfg0.N) (hf : (cfg0.win 2).flush t = true) :
    (dats m 0 c).flushed 2 t = ((cfg0.win 2).blk t).view.read (Elt Ideal) (colsumsq m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  have hoff : (fun a => win0_2.index t0_7 a * main_v0_1.ty.shape.size a) = fun _ => 0 := funext fun a => by
    match a with
    | ⟨0, _⟩ => show win0_2.index t0_7 0 * _ = 0; rw [(out_idx_facts t0_7).2.1, Nat.zero_mul]
    | ⟨1, _⟩ => show win0_2.index t0_7 1 * _ = 0; rw [(out_idx_facts t0_7).2.2, Nat.zero_mul]
  exact (Memref.read_access_unit_zero (Elt Ideal) main_v0_1 hoff (fun a => by rw [congrFun hoff a, Nat.zero_add]) (colsumsq m c)).symm

/-- So the array ends at the accumulator after the last point: that point's block covers every index. -/
theorem final2 (c : Dev nD) : (dats m 0 c).arrAt 2 cfg0.N = colsumsq m c :=
  (dats m 0 c).arrAt_eq_of_cover 2 (colsumsq m c) (flushed2_eq m c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 10000 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [(out_idx_facts t0_7).2.1, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [(out_idx_facts t0_7).2.2, show win0_2.xsize (grid0.coords t0_7) 1 = 10000 from by decide +kernel]; omega⟩

/-- The region's arrays and the table, as the host operations after the region find them. -/
abbrev atTail (c : Dev nD) (b : Ref sig .tc) :=
  Pipeline.withArrays (cfgs 0).spec c (V0 m c) (fun w => (dats m 0 c).arrAt w (cfgs 0).N) (Proc.devRef .tc b)

theorem atTail_v0_0 (c : Dev nD) : atTail m c main_v0_0 = colsum m c :=
  (Pipeline.withArrays_arr spec0 launch0.win.arr_inj c _ _ 1).trans (final1 m c)
theorem atTail_v0_1 (c : Dev nD) : atTail m c main_v0_1 = colsumsq m c :=
  (Pipeline.withArrays_arr spec0 launch0.win.arr_inj c _ _ 2).trans (final2 m c)
theorem atTail_arg1 (c : Dev nD) : atTail m c main_arg1 = m ((c : Thread nD τ).loc main_arg1) :=
  (Pipeline.withArrays_of_ne _ c (V0 m c) _ main_arg1 (by exact (by decide : ∀ w, Pipeline.arrRef spec0 w ≠ main_arg1))).trans
    (V_main_arg1 m c)

/-- The program's result buffer after the closing host operations. -/
theorem tail_eq (c : Dev nD) :
    Pipeline.afterTail₀ cfgs (dats m) 0 (V0 m) [hostOps1] c main_v11
      = Tail.tail (F := Ideal) (colsum m c) (colsumsq m c) (m ((c : Thread nD τ).loc main_arg1)) := by
  unfold Pipeline.afterTail₀
  show StableHlo.after hostOps1 _ (Proc.devRef .tc main_v11) = _
  after_results
  refine (show _ = Tail.tail (F := Ideal) (atTail m c main_v0_0) (atTail m c main_v0_1) (atTail m c main_arg1) from rfl).trans ?_
  rw [atTail_v0_0, atTail_v0_1, atTail_arg1]

/-- Every weakly fair execution of the kernel's program terminates with its result at the closing operations of the
    column sums, and the two arguments unchanged. -/
theorem run : θ_run defs (onTc (τ := τ) (main (F := Ideal))) ⟨m, fun _ => 0, ρ⟩ fun r => ∀ c : Dev nD,
      r.2.mem ((c.tc : Thread nD τ).loc main_v11) = Tail.tail (F := Ideal) (colsum m c) (colsumsq m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The result, at its one index, is the scalar form at the input and the table. -/
theorem result_apply (c : Dev nD) (i : S_.Idx) :
    Tail.tail (F := Ideal) (colsum m c) (colsumsq m c) (m ((c.tc : Thread nD τ).loc main_arg1)) i
      = kerScalar (m ((c.tc : Thread nD τ).loc main_arg0)) (m ((c.tc : Thread nD τ).loc main_arg1)) := by
  rw [Tail.tail_apply]
  unfold kerScalar
  rw [show (fun k => colsum m c (ix2 (0 : Fin 1) k)) = fun k => ∑ b : Fin 4096, xarr m c (ix2 b k) from funext (colsum_apply m c),
    show (fun k => colsumsq m c (ix2 (0 : Fin 1) k)) = fun k => ∑ b : Fin 4096, xarr m c (ix2 b k) * xarr m c (ix2 b k) from funext (colsumsq_apply m c)]
  rfl

end Cert.KernelIdeal.Accum

end
-- ==== Proof.RefValue.lean ====
/-
  The reference's result, read over the extended reals.

  The reference multiplies the input by the table, sums the product down the batch, squares and sums that row; it
  multiplies the squared input by the squared table and sums every entry; it subtracts and halves. Read one operation
  at a time at an index, with each sum's initial 0 dropped, its result is the scalar form `refScalar`.
-/
import proofs.«100159_j30631706755974_1_alg».proof.Proof.Gen.ReferenceIdeal.Run
import proofs.«100159_j30631706755974_1_alg».proof.Proof.Gen.ReferenceIdeal.Read
import proofs.«100159_j30631706755974_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read ValueIdx Cert.Spec

/-- The first product's operand indices at output entry (b, f) and contraction position k: (b, k) and (k, f). -/
theorem lidx0 (f : Fin 64) (b : Fin 4096) (k : Fin 10000) : lidx_main_v0 (idx_main_v1 (ix1 f) b) k = ix2 b k :=
  funext fun a => Fin.ext (by match a with | ⟨0, _⟩ => rfl | ⟨1, _⟩ => rfl)
theorem ridx0 (f : Fin 64) (b : Fin 4096) (k : Fin 10000) : ridx_main_v0 (idx_main_v1 (ix1 f) b) k = ix2 k f :=
  funext fun a => Fin.ext (by match a with | ⟨0, _⟩ => rfl | ⟨1, _⟩ => rfl)
/-- The second product's, likewise. -/
theorem lidx4 (f : Fin 64) (b : Fin 4096) (k : Fin 10000) : lidx_main_v4 (ix2 b f) k = ix2 b k :=
  funext fun a => Fin.ext (by match a with | ⟨0, _⟩ => rfl | ⟨1, _⟩ => rfl)
theorem ridx4 (f : Fin 64) (b : Fin 4096) (k : Fin 10000) : ridx_main_v4 (ix2 b f) k = ix2 k f :=
  funext fun a => Fin.ext (by match a with | ⟨0, _⟩ => rfl | ⟨1, _⟩ => rfl)

/-- The batch-summed product at column f: the double sum over the batch and the features. -/
theorem t_apply (x0 : (⟨S4096x10000, .f32⟩ : BufTy).Contents (Elt Ideal)) (x1 : (⟨S10000x64, .f32⟩ : BufTy).Contents (Elt Ideal)) (f : Fin 64) :
    val_main_v1 (F := Ideal) x0 x1 (ix1 f) = ∑ b : Fin 4096, ∑ k : Fin 10000, x0 (ix2 b k) * x1 (ix2 k f) := by
  rw [val_main_v1_apply, val_main_cst_apply]
  show Ideal.ofBits .f32 0x00000000#32 + _ = _
  rw [Ideal.ofBits_zero_f32, zero_add]
  refine Finset.sum_congr rfl fun b _ => ?_
  rw [val_main_v0_apply]
  refine Finset.sum_congr rfl fun k _ => ?_
  rw [lidx0, ridx0]

/-- The reference's result at its one index. -/
theorem result_apply (x0 : (⟨S4096x10000, .f32⟩ : BufTy).Contents (Elt Ideal)) (x1 : (⟨S10000x64, .f32⟩ : BufTy).Contents (Elt Ideal)) (i : S_.Idx) :
    val_main_v9 (F := Ideal) x0 x1 i = refScalar x0 x1 := by
  unfold refScalar
  rw [val_main_v9_apply, val_main_cst_2_apply, val_main_v8_apply, val_main_v7_apply, val_main_v5_apply,
    val_main_cst_1_apply, val_main_cst_0_apply]
  show Ideal.ofBits .f32 0x3F000000#32 * ((Ideal.ofBits .f32 0x00000000#32 + ∑ j, val_main_v6 (F := Ideal) x0 x1 j)
    - (Ideal.ofBits .f32 0x00000000#32 + ∑ j, val_main_v4 (F := Ideal) x0 x1 j)) = _
  rw [Ideal.ofBits_zero_f32, zero_add, zero_add, sum_idx1, sum_idx2]
  refine congrArg (half * ·) ?_
  refine congrArg₂ (· - ·) (Finset.sum_congr rfl fun f _ => ?_)
    (Finset.sum_congr rfl fun b _ => Finset.sum_congr rfl fun f _ => ?_)
  · rw [val_main_v6_apply, t_apply]
    rfl
  · rw [val_main_v4_apply]
    refine Finset.sum_congr rfl fun k _ => ?_
    rw [val_main_v2_apply, val_main_v3_apply, lidx4, ridx4]
    rfl

end Cert.ReferenceIdeal.RefValue

end
-- ==== Proof.Finite.lean ====
/-
  From the precondition to real entries.

  The precondition says, of each input array, that every entry's absolute value is below +∞ (the pattern 0x7F800000),
  the per-entry comparisons joined by "all" and the two arrays' verdicts by "and". An extended real whose absolute
  value is below +∞ is neither infinity, so it is a real number.
-/
import proofs.«100159_j30631706755974_1_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem

namespace Cert.Finite

open Cert.Pre_finite_inputs

variable [Cert.Pre_finite_inputs.Facts]

instance : Subsingleton S_.Idx := ⟨fun a b => funext fun d => d.elim0⟩

/-- An extended real with |x| < +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of both inputs is a real number. -/
theorem real_of_pre (x0 : FVec Ideal S4096x10000 .f32) (x1 : FVec Ideal S10000x64 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  exact ⟨fun i => real_of_abs_lt_top (x0 i) (Host.reduce_andi_all _ _ _ _ _ ha i),
    fun i => real_of_abs_lt_top (x1 i) (Host.reduce_andi_all _ _ _ _ _ hb i)⟩

end Cert.Finite

end
-- ==== Proof.lean ====
/-
  The kernel computes, for an input X of shape [4096, 10000] and a table V of shape [10000, 64], the scalar
      1/2 · ( Σ_f (Σ_b Σ_k X[b,k]·V[k,f])²  −  Σ_b Σ_f Σ_k X[b,k]²·V[k,f]² ),
  which the reference spells with two [4096,10000]×[10000,64] products. The kernel instead streams X once in eight
  blocks of 512 rows, accumulating per column the sum s[k] = Σ_b X[b,k] and the sum of squares q[k] = Σ_b X[b,k]²,
  and then evaluates  1/2 · ( Σ_f (Σ_k s[k]·V[k,f])² − Σ_k q[k]·Σ_f V[k,f]² )  on those two rows.

  Over the extended reals the two are equal when every entry is a real number — which the precondition gives —
  because the sum over b then passes through the products and the finite sums exchange; the factor 1/2 and the
  subtraction are the same on both sides. The accumulation over the grid is a running sum in blocks of 512 rows; an
  initial 0 adds nothing to a sum.

  The three programs run and keep their arguments: the kernel's two by its frame, the reference's by its run. The
  idealization rewrote nothing.
-/
import proofs.«100159_j30631706755974_1_alg».proof.Defs
import proofs.«100159_j30631706755974_1_alg».proof.Proof.Gen.Kernel
import proofs.«100159_j30631706755974_1_alg».proof.Proof.Gen.Kernel.Skeleton
import proofs.«100159_j30631706755974_1_alg».proof.Proof.Gen.Kernel.Launch
import proofs.«100159_j30631706755974_1_alg».proof.Proof.Gen.Kernel.Points
import proofs.«100159_j30631706755974_1_alg».proof.Proof.Gen.Kernel.Frame
import proofs.«100159_j30631706755974_1_alg».proof.Proof.Gen.KernelIdeal
import proofs.«100159_j30631706755974_1_alg».proof.Proof.Gen.KernelIdeal.Skeleton
import proofs.«100159_j30631706755974_1_alg».proof.Proof.Gen.KernelIdeal.Launch
import proofs.«100159_j30631706755974_1_alg».proof.Proof.Gen.KernelIdeal.Points
import proofs.«100159_j30631706755974_1_alg».proof.Proof.Gen.KernelIdeal.Frame
import proofs.«100159_j30631706755974_1_alg».proof.Proof.Gen.ReferenceIdeal
import proofs.«100159_j30631706755974_1_alg».proof.Proof.Gen.Pre_finite_inputs
import proofs.«100159_j30631706755974_1_alg».proof.Proof.KernelRun
import proofs.«100159_j30631706755974_1_alg».proof.Proof.RefValue
import proofs.«100159_j30631706755974_1_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's scalar form of the shared arguments: the reference by reading its
    operations, the kernel by its accumulated column sums and the exchange of sums over real entries. -/
theorem algebraic : Cert.algebraic_KernelIdeal_ReferenceIdeal := by
  intro m ρ m' ρ' hpre hagree
  refine ⟨fun c _ => Cert.Spec.refScalar (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Accum.run m ρ)
    funext i
    obtain ⟨hx, hv⟩ := Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (hpre c)
    exact (Cert.KernelIdeal.Accum.result_apply m c i).trans
      (Cert.Spec.kerScalar_eq_refScalar (m ((c.tc : Thread Cert.KernelIdeal.nD Cert.KernelIdeal.τ).loc Cert.KernelIdeal.main_arg0)) (m ((c.tc : Thread Cert.KernelIdeal.nD Cert.KernelIdeal.τ).loc Cert.KernelIdeal.main_arg1)) hx hv)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).1, (hagree c).2]
    funext i
    exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
